-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x36 : Shape := ⟨2, ![524288, 36]⟩
abbrev S_ : Shape := ⟨0, ![]⟩

class Facts : Prop where
  bcast_S_S524288x36 : S_.BroadcastsInDim S524288x36 (![] : Fin 0 → Fin S524288x36.rank)
  reducesTo_S524288x36_S_d0_1 : S524288x36.ReducesTo [0, 1] S_
  h_S_ : 0 < S_.numel

variable [Facts]

def fn {F : FTy → Type} [FloatOps F] (main_arg0 : FVec F S524288x36 .f32) (main_arg1 : FVec F S524288x36 .f32) : IVec S_ 1 :=
  let main_v0 : FVec F S524288x36 .f32 := Host.absf main_arg0
  let main_cst : FVec F S_ .f32 := constant S_ .f32 0x7F800000#32
  let main_v1 : FVec F S524288x36 .f32 := broadcastInDim S524288x36 ![] bcast_S_S524288x36 main_cst
  let main_v2 : IVec S524288x36 1 := cmpf .olt main_v0 main_v1
  let main_c : IVec S_ 1 := constantI S_ 1 1#1
  let main_v3 : IVec S_ 1 := (fun x v => Host.reduce IntOp.andi x v reducesTo_S524288x36_S_d0_1 h_S_) main_v2 main_c
  let main_v4 : FVec F S524288x36 .f32 := Host.absf main_arg1
  let main_cst_0 : FVec F S_ .f32 := constant S_ .f32 0x7F800000#32
  let main_v5 : FVec F S524288x36 .f32 := broadcastInDim S524288x36 ![] bcast_S_S524288x36 main_cst_0
  let main_v6 : IVec S524288x36 1 := cmpf .olt main_v4 main_v5
  let main_c_1 : IVec S_ 1 := constantI S_ 1 1#1
  let main_v7 : IVec S_ 1 := (fun x v => Host.reduce IntOp.andi x v reducesTo_S524288x36_S_d0_1 h_S_) main_v6 main_c_1
  let main_v8 : IVec S_ 1 := andi main_v3 main_v7
  main_v8
-- ==== Kernel.lean ====
abbrev S524288x36 : Shape := ⟨2, ![524288, 36]⟩
abbrev S1x1 : Shape := ⟨2, ![1, 1]⟩
abbrev S16384x36 : Shape := ⟨2, ![16384, 36]⟩
abbrev S16384 : Shape := ⟨1, ![16384]⟩
abbrev S16384x1 : Shape := ⟨2, ![16384, 1]⟩
abbrev S1 : Shape := ⟨1, ![1]⟩

abbrev nBuf : Space → Nat
  | .hbm => 4
  | .vmem => 6
  | .smem => 0
  | _ => 0

abbrev bufTy : (tb : Table) → Fin (tcTables nBuf tb) → BufTy
  | .hbm, ⟨0, _⟩ => ⟨S524288x36, .f32⟩
  | .hbm, ⟨1, _⟩ => ⟨S524288x36, .f32⟩
  | .hbm, ⟨2, _⟩ => ⟨S1x1, .f32⟩
  | .hbm, ⟨3, _⟩ => ⟨S1, .f32⟩
  | .local _ .vmem, ⟨0, _⟩ => ⟨S16384x36, .f32⟩
  | .local _ .vmem, ⟨1, _⟩ => ⟨S16384x36, .f32⟩
  | .local _ .vmem, ⟨2, _⟩ => ⟨S16384x36, .f32⟩
  | .local _ .vmem, ⟨3, _⟩ => ⟨S16384x36, .f32⟩
  | .local _ .vmem, ⟨4, _⟩ => ⟨S1x1, .f32⟩
  | .local _ .vmem, ⟨5, _⟩ => ⟨S1x1, .f32⟩
  | _, _ => ⟨S524288x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v20 : BitVec 1 := Scalar.cmpi .eq arg0 c31_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x36 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x36 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16384x36_S16384x36_0_0 : ∀ a, (![0, 0] : Fin 2 → Nat) a + S16384x36.size a ≤ S16384x36.size a
  h_S16384x36 : 0 < S16384x36.numel
  reduces_S16384x36_S16384 : S16384x36.Reduces [1] S16384
  shapeCasts_S16384_S16384x1 : S16384.ShapeCasts S16384x1
  reduces_S16384x1_S1 : S16384x1.Reduces [0] S1
  shapeCasts_S1_S1x1 : S1.ShapeCasts S1x1
  shapeCasts_S1x1_S1 : S1x1.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x36.size a ≤ S524288x36.size a
  hwx0_0 : ∀ i : grid0.Coords, EltTy.bits .f32 = 32 ∨ (Rect.block (s := S524288x36) S16384x36.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x36.size a ≤ S524288x36.size a
  hwx0_1 : ∀ i : grid0.Coords, EltTy.bits .f32 = 32 ∨ (Rect.block (s := S524288x36) S16384x36.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S16384x36.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x36.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S524288x36 : Shape := ⟨2, ![524288, 36]⟩
abbrev S_ : Shape := ⟨0, ![]⟩
abbrev S524288 : Shape := ⟨1, ![524288]⟩
abbrev S1 : Shape := ⟨1, ![1]⟩

abbrev nBuf : Space → Nat
  | .hbm => 15
  | .vmem => 0
  | .smem => 0
  | _ => 0

abbrev bufTy : (tb : Table) → Fin (tcTables nBuf tb) → BufTy
  | .hbm, ⟨0, _⟩ => ⟨S524288x36, .f32⟩
  | .hbm, ⟨1, _⟩ => ⟨S524288x36, .f32⟩
  | .hbm, ⟨2, _⟩ => ⟨S524288x36, .f32⟩
  | .hbm, ⟨3, _⟩ => ⟨S_, .f32⟩
  | .hbm, ⟨4, _⟩ => ⟨S524288, .f32⟩
  | .hbm, ⟨5, _⟩ => ⟨S524288x36, .f32⟩
  | .hbm, ⟨6, _⟩ => ⟨S_, .f32⟩
  | .hbm, ⟨7, _⟩ => ⟨S524288, .f32⟩
  | .hbm, ⟨8, _⟩ => ⟨S524288, .f32⟩
  | .hbm, ⟨9, _⟩ => ⟨S524288, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1, .f32⟩
  | _, _ => ⟨S524288x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  reducesTo_S524288x36_S524288_d1 : S524288x36.ReducesTo [1] S524288
  h_S_ : 0 < S_.numel
  reducesTo_S524288_S_d0 : S524288.ReducesTo [0] S_
  shapeCasts_S_S1 : S_.ShapeCasts S1

variable [Facts₀]

class Facts : Prop extends Facts₀ where

variable [Facts]
-- ==== Proof.KernelFold.lean ====
/-
  What the idealized kernel leaves in its result, as a fold over the 32 grid points.

  The kernel keeps one scalar accumulator (a [1,1] scratch) across the grid.  At point 0 it is reset to zero; at every
  point the body adds to it the sum, over the point's 16384 rows, of log (Σⱼ max(p,g) / Σⱼ min(p,g)); at the last point
  the accumulator divided by the number of rows is stored into the [1,1] result block, which is written back there
  and nowhere else.  After the region the host reshapes [1,1] to [1].

  Here, for any float instance: each case's stores read back as the body's payloads (`acc_first`, `acc_next`,
  `acc_last`, `res_last`); so the accumulator after point n is the fold `acc` (`scratch_eq`, by induction on the
  point); so the result array ends at `result` = the last payload of the fold's last value (`final_res`), and the
  program's result buffer at its reshape (`run`).
-/
import proofs.«146596_j37649683317009_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Fold

open Cert.KernelIdeal Cert.KernelIdeal.Gen

variable {F : FTy → Type} [FloatOps F]

theorem hz : (![0, 0] : Fin 2 → Nat) = fun _ => 0 := funext fun a => by fin_cases a <;> rfl

/-! ## Each case's stores, read back -/

/-- A middle point (neither first nor last): the accumulator, holding `xs`, ends at the update payload of the two
    input blocks and `xs` — one covering store whose loads read whole buffers. -/
theorem acc_next (c : Dev nD) (i : grid0.Coords) (a1 : Memref sig .tc .vmem S16384x36 .f32) (h1 : a1.IsWhole) (a2 : Memref sig .tc .vmem S16384x36 .f32) (h2 : a2.IsWhole) (a3 : Memref sig .tc .vmem S1x1 .f32) (h3 : a3.IsWhole) (a4 : Memref sig .tc .vmem S1x1 .f32) (h4 : a4.IsWhole) (hc0 : ¬cond0_0 i) (hc1 : ¬cond0_1 i)
    (x0 x1 : Vec F S16384x36 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S16384x36) hz, View.ld_unit_zero (S := S1x1) hz]

/-- The first point: the accumulator is stored the zero payload, read back, and updated — the update payload at zero. -/
theorem acc_first (c : Dev nD) (i : grid0.Coords) (a1 : Memref sig .tc .vmem S16384x36 .f32) (h1 : a1.IsWhole) (a2 : Memref sig .tc .vmem S16384x36 .f32) (h2 : a2.IsWhole) (a3 : Memref sig .tc .vmem S1x1 .f32) (h3 : a3.IsWhole) (a4 : Memref sig .tc .vmem S1x1 .f32) (h4 : a4.IsWhole) (hc0 : cond0_0 i) (hc1 : ¬cond0_1 i)
    (x0 x1 : Vec F S16384x36 .f32) :
    sout0_A_0 c i a1 h1 a2 h2 a3 h3 a4 h4 hc0 hc1 x0 x1 = k0_pay2 x0 x1 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S16384x36) hz]

/-- The last point updates the accumulator as a middle point does, -/
theorem acc_last (c : Dev nD) (i : grid0.Coords) (a1 : Memref sig .tc .vmem S16384x36 .f32) (h1 : a1.IsWhole) (a2 : Memref sig .tc .vmem S16384x36 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 x1 : Vec F S16384x36 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S16384x36) hz, View.ld_unit_zero (S := S1x1) hz]

/-- and stores into the result block the closing payload of the accumulator it has just updated (read back). -/
theorem res_last (c : Dev nD) (i : grid0.Coords) (a1 : Memref sig .tc .vmem S16384x36 .f32) (h1 : a1.IsWhole) (a2 : Memref sig .tc .vmem S16384x36 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 x1 : Vec F S16384x36 .f32) (xs : Vec F S1x1 .f32) :
    out0_C_2 c i a1 h1 a2 h2 a3 h3 a4 h4 hc0 hc1 x0 x1 xs = k0_pay3 (k0_pay2 x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S16384x36) hz, View.ld_unit_zero (S := S1x1) hz]

/-! ## The accumulator after each point -/

variable (m : (ℓ : Loc nD τ sig) → Buf (Elt F) ℓ) (ρ : Dev nD → PrngReg)

/-- The two input blocks of point `t`, at their literal type. -/
abbrev pblk (c : Dev nD) (t : Fin cfg0.N) : Vec F S16384x36 .f32 := iblk m c 0 t
abbrev gblk (c : Dev nD) (t : Fin cfg0.N) : Vec F S16384x36 .f32 := iblk m c 1 t

/-- The accumulator after point `n`: the update payload of the point's blocks, over zero at the first point and over
    the previous value afterwards. -/
def acc (c : Dev nD) : (n : ℕ) → n < cfg0.N → Vec F S1x1 .f32
  | 0, h => k0_pay2 (pblk m c ⟨0, h⟩) (gblk m c ⟨0, h⟩) k0_pay1
  | n + 1, h => k0_pay2 (pblk m c ⟨n + 1, h⟩) (gblk m c ⟨n + 1, h⟩) (acc c n (Nat.lt_of_succ_lt h))

/-- What the frame's point-by-point contents hold in the scratch is that fold: by induction on the point. -/
theorem scratch_eq (c : Dev nD) : ∀ (n : ℕ) (h : n < cfg0.N), (outsAt0 m c n h).2 = acc m c n h
  | 0, h => by
    rw [outsAt0_A m c ⟨0, h⟩ rfl (by dsimp only; omega)]
    dsimp only
    exact acc_first c _ _ _ _ _ _ _ _ _ _ _ (iblk m c 0 ⟨0, h⟩) (iblk m c 1 ⟨0, h⟩)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      refine (acc_last c _ _ _ _ _ _ _ _ _ _ _ (iblk m c 0 ⟨n + 1, h⟩) (iblk m c 1 ⟨n + 1, h⟩) _).trans ?_
      show k0_pay2 _ _ (outsAt0 m c n _).2 = k0_pay2 _ _ (acc m c n _)
      rw [scratch_eq c n]
    · rw [outsAt0_B m c ⟨n + 1, h⟩ h0 h1]
      dsimp only
      refine (acc_next c _ _ _ _ _ _ _ _ _ _ _ (iblk m c 0 ⟨n + 1, h⟩) (iblk m c 1 ⟨n + 1, h⟩) _).trans ?_
      show k0_pay2 _ _ (outsAt0 m c n _).2 = k0_pay2 _ _ (acc m c n _)
      rw [scratch_eq c n]

/-- At a last point the result block holds the closing payload of the accumulator after that point. -/
theorem res_eq (c : Dev nD) (t : Fin cfg0.N) (h1 : t.val % 32 = 31) :
    (outsAt0 m c t.val t.isLt).1 = k0_pay3 (outsAt0 m c t.val t.isLt).2 := by
  have h0 : ¬t.val % 32 = 0 := by omega
  rw [outsAt0_C m c t h0 h1]
  dsimp only
  exact (res_last c _ _ _ _ _ _ _ _ _ _ _ (iblk m c 0 t) (iblk m c 1 t) _).trans
    (congrArg k0_pay3 (acc_last c _ _ _ _ _ _ _ _ _ _ _ (iblk m c 0 t) (iblk m c 1 t) _).symm)

/-! ## The result array, and the program's result -/

/-- The last grid point. -/
abbrev tLast : Fin cfg0.N := ⟨31, by rw [show cfg0.N = 32 from N_0]; decide⟩

/-- The [1,1] result array after the region: the closing payload of the fold's last value. -/
abbrev result (c : Dev nD) : Buf (Elt F) ((c : Thread nD τ).loc main_v0) := k0_pay3 (acc m c 31 tLast.isLt)

/-- The one write-back, at the last point, writes it: the block is the whole array. -/
theorem flushed_eq (c : Dev nD) (t : Fin cfg0.N) (hf : (cfg0.win 2).flush t = true) :
    (dats m 0 c).flushed 2 t = ((cfg0.win 2).blk t).view.read (Elt F) (result m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, res_eq m c tLast rfl, scratch_eq]
  have hz' : (fun a => win0_2.index tLast a * main_v0.ty.shape.size a) = fun _ => 0 := funext fun a => by fin_cases a <;> decide
  exact (Memref.read_access_unit_zero (Elt F) main_v0 hz' (fun a => by rw [congrFun hz' a]; simp) (result m c)).symm

/-- So the result array ends holding it: the last point's block covers the array. -/
theorem final_res (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The host's reshape after the region, applied to the result array. -/
theorem tail_eq (c : Dev nD) :
    Pipeline.afterTail₀ cfgs (dats m) 0 (V0 m) [hostOps1] c main_v1 = shapeCast S1 (result m c) shapeCasts_S1x1_S1 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = result m c :=
    (Pipeline.withArrays_arr spec0 launch0.win.arr_inj c _ _ 2).trans (final_res m c)
  rw [e]
  rfl

/-- The run, read: the program's result buffer at the reshape of `result`, the two arguments unchanged. -/
theorem run : θ_run defs (onTc (τ := τ) (main (F := F))) ⟨m, fun _ => 0, ρ⟩ fun r => ∀ c : Dev nD,
      r.2.mem ((c : Thread nD τ).loc main_v1) = shapeCast S1 (result m c) shapeCasts_S1x1_S1
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Fold

end
-- ==== Proof.LibSumLaws.lean ====
/-
  GENERAL LEMMAS (no program is imported): a grid accumulator against one whole sum.
  Two facts about finite sums in an additive commutative monoid — on the extended reals they hold at the infinities too,
  since only commutativity and associativity of `+` are used.

  `fold_eq_sum`: a running total that starts from `z + b 0` and then adds `b 1`, `b 2`, … is `z` plus the sum of the
  terms so far.
  `sum_runs`: a sum over `a * b` consecutive indices is the sum, over `a` runs, of the sum of the run's `b` terms.
-/
import Mathlib.Algebra.BigOperators.Fin
import Mathlib.Logic.Equiv.Fin.Basic

namespace Cert.Proof.SumLaws

open scoped BigOperators

variable {M : Type*} [AddCommMonoid M]

/-- A family `x` of running totals over the terms `b`: if it starts at `z + b 0` and each next one adds the next term,
    then the total after step `n` is `z` plus the sum of the first `n + 1` terms. -/
theorem fold_eq_sum {N : ℕ} (z : M) (b : Fin N → M) (x : (n : ℕ) → n < N → M)
    (h0 : ∀ h, x 0 h = z + b ⟨0, h⟩)
    (hs : ∀ n (h : n + 1 < N), x (n + 1) h = x n (Nat.lt_of_succ_lt h) + b ⟨n + 1, h⟩) :
    ∀ (n : ℕ) (h : n < N), x n h = z + ∑ s : Fin (n + 1), b ⟨s.val, Nat.lt_of_lt_of_le s.isLt h⟩
  | 0, h => by rw [h0 h, Fin.sum_univ_one]; rfl
  | n + 1, h => by
    rw [hs n h, fold_eq_sum z b x h0 hs n (Nat.lt_of_succ_lt h), add_assoc]
    refine congrArg (z + ·) ?_
    exact (Fin.sum_univ_castSucc (fun s : Fin (n + 2) => b ⟨s.val, Nat.lt_of_lt_of_le s.isLt h⟩)).symm

/-- Term `r` of run `s` has an index below `a * b`. -/
theorem run_lt {a b : ℕ} (s : Fin a) (r : Fin b) : s.val * b + r.val < a * b :=
  calc s.val * b + r.val < s.val * b + b := Nat.add_lt_add_left r.isLt _
    _ = (s.val + 1) * b := (Nat.succ_mul _ _).symm
    _ ≤ a * b := Nat.mul_le_mul_right b s.isLt

/-- A sum over `a * b` consecutive indices, run by run: index `s * b + r` is term `r` of run `s`. -/
theorem sum_runs {n : ℕ} (a b : ℕ) (h : a * b = n) (f : Fin n → M) :
    ∑ i, f i = ∑ s : Fin a, ∑ r : Fin b, f ⟨s.val * b + r.val, h ▸ run_lt s r⟩ := by
  subst h
  rw [← Equiv.sum_comp finProdFinEquiv f, Fintype.sum_prod_type]
  refine Finset.sum_congr rfl fun s _ => Finset.sum_congr rfl fun r _ => congrArg f (Fin.ext ?_)
  simp only [finProdFinEquiv_apply_val]
  rw [Nat.mul_comm, Nat.add_comm]

end Cert.Proof.SumLaws
-- ==== Proof.Spec.lean ====
/-
  The loss both programs compute, as ONE function of the two argument arrays `P`, `G` : [524288, 36] over the extended
  reals:

      meanLoss P G = (0 + Σ_{i < 524288} log( Σ_{j < 36} max(P i j, G i j) / Σ_{j < 36} min(P i j, G i j) )) / 524288

  with `log` and `/` the ideal instance's total operations (their conventions at 0, at the infinities and at negatives
  are the same on both sides, so they are never opened).  The reference sums the 524288 rows at once; the kernel sums
  them in 32 runs of 16384 rows (`rows_by_runs`): the same sum, regrouped.
-/
import Idealize.ShloMosaic.PureOps.Ideal
import Idealize.ShloMosaic.PureOps.Ideal.Laws
import Idealize.ShloMosaic.Lib.ValueIdx
import proofs.«146596_j37649683317009_1_alg».proof.Proof.LibSumLaws

noncomputable section

namespace Cert.Proof.Spec

open Idealize.ShloMosaic Idealize.ShloMosaic.ValueIdx
open scoped BigOperators

/-- One row's term: the log of the ratio of the row's sum of maxima to its sum of minima. -/
def rowLoss (p g : Fin 36 → EReal) : EReal :=
  Ideal.log (Ideal.div (∑ j, max (p j) (g j)) (∑ j, min (p j) (g j)))

/-- Row `i` of an array, as a function of the column. -/
abbrev rowOf (P : (⟨2, ![524288, 36]⟩ : Shape).Idx → EReal) (i : Fin 524288) : Fin 36 → EReal := fun j => P (ix2 i j)

/-- The divisor both programs spell: the f32 word of 524288.0. -/
abbrev nRows : EReal := Ideal.ofBits .f32 0x49000000#32

/-- The loss: the mean over the rows of the rows' terms. -/
def meanLoss (P G : (⟨2, ![524288, 36]⟩ : Shape).Idx → EReal) : EReal :=
  Ideal.div (0 + ∑ i : Fin 524288, rowLoss (rowOf P i) (rowOf G i)) nRows

/-- The rows' total, as 32 runs of 16384 consecutive rows. -/
theorem rows_by_runs (f : Fin 524288 → EReal) :
    ∑ i, f i = ∑ s : Fin 32, ∑ r : Fin 16384, f ⟨s.val * 16384 + r.val, SumLaws.run_lt s r⟩ :=
  SumLaws.sum_runs 32 16384 rfl f

end Cert.Proof.Spec

end
-- ==== Proof.KernelAtIdeal.lean ====
/-
  The idealized kernel's payloads read at an index, at the ideal instance.

  The update payload adds to the accumulator the sum, over the block's 16384 rows, of the row term
  log (Σⱼ max / Σⱼ min): two lane sums over the 36 columns (each re-laid from [16384] to a column [16384,1]), the
  quotient and the log row by row, then a sum down the column (re-laid from [1] to [1,1]).  The zero payload is 0 and
  the closing payload divides by the word of 524288.0.
-/
import proofs.«146596_j37649683317009_1_alg».proof.Proof.Gen.KernelIdeal.Skeleton
import proofs.«146596_j37649683317009_1_alg».proof.Proof.Spec
import Idealize.ShloMosaic.Lib.Pipeline.Value
import Idealize.ShloMosaic.Lib.ValueIdx
import Idealize.ShloMosaic.PureOps.Ideal.Laws

noncomputable section

namespace Cert.KernelIdeal.AtIdeal

open Idealize.ShloMosaic Idealize.ShloMosaic.ValueIdx Cert.KernelIdeal Cert.KernelIdeal.Gen Cert.Proof.Spec
open scoped BigOperators

/-! ## The operations that are not pointwise, each at an index -/

/-- A lane sum over the 36 columns, at row `r`. -/
theorem rowsum_apply (v : FVec Ideal S16384x36 .f32) (hφ : FKind.Formats .f32)
    (hacc : (0x00000000#32 : BitVec 32) = FKind.add.neutral .f32 hφ) (r : Fin 16384) :
    multiReduction .add [1] S16384 v 0x00000000#32 reduces_S16384x36_S16384 hφ hacc (ix1 r) = ∑ j : Fin 36, v (ix2 r j) :=
  (Ideal.multiReduction_add_single v 0x00000000#32 reduces_S16384x36_S16384 hφ hacc (ix1 r)).trans
    (Finset.sum_congr rfl fun j _ => congrArg v (funext fun a => by match a with | ⟨0, _⟩ => rfl | ⟨1, _⟩ => rfl))

/-- A vector of 16384 re-laid as a column: entry (r, 0) is entry r. -/
theorem col_apply (v : FVec Ideal S16384 .f32) (r : Fin 16384) (z : Fin 1) :
    shapeCast S16384x1 v shapeCasts_S16384_S16384x1 (ix2 r z) = v (ix1 r) := by
  refine shapeCast_apply v _ _ _ ?_
  rw [Shape.rowMajor_val_one, Shape.rowMajor_val_two]
  have hz : z.val = 0 := by omega
  show r.val = r.val * 1 + z.val
  omega

/-- A sum down a column of 16384. -/
theorem colsum_apply (v : FVec Ideal S16384x1 .f32) (hφ : FKind.Formats .f32)
    (hacc : (0x00000000#32 : BitVec 32) = FKind.add.neutral .f32 hφ) (z : Fin 1) :
    multiReduction .add [0] S1 v 0x00000000#32 reduces_S16384x1_S1 hφ hacc (ix1 z) = ∑ r : Fin 16384, v (ix2 r z) :=
  (Ideal.multiReduction_add_single v 0x00000000#32 reduces_S16384x1_S1 hφ hacc (ix1 z)).trans
    (Finset.sum_congr rfl fun r _ => congrArg v (funext fun a => by match a with | ⟨0, _⟩ => rfl | ⟨1, _⟩ => rfl))

/-- A vector of one entry re-laid as [1,1]. -/
theorem one_apply (v : FVec Ideal S1 .f32) (p q : Fin 1) :
    shapeCast S1x1 v shapeCasts_S1_S1x1 (ix2 p q) = v (ix1 0) := by
  refine shapeCast_apply v _ _ _ ?_
  rw [Shape.rowMajor_val_one, Shape.rowMajor_val_two]
  show (0 : Fin 1).val = p.val * 1 + q.val
  have := p.isLt; have := q.isLt
  simp only [Fin.val_zero]; omega

/-- The log of a quotient, entry by entry. -/
theorem logdiv_apply (A B : FVec Ideal S16384x1 .f32) (i : S16384x1.Idx) :
    log (divf A B) i = Ideal.log (Ideal.div (A i) (B i)) := rfl

/-! ## The three payloads -/

/-- The update payload: the accumulator plus the run's sum of row terms. -/
theorem pay2_apply (x0 x1 : Vec Ideal S16384x36 .f32) (a : Vec Ideal S1x1 .f32) (p q : Fin 1) :
    k0_pay2 (F := Ideal) x0 x1 a (ix2 p q)
      = a (ix2 p q) + ∑ r : Fin 16384, rowLoss (fun j => x0 (ix2 r j)) (fun j => x1 (ix2 r j)) := by
  unfold k0_pay2
  refine (congrFun (shapeCast_self _ _) _).trans ?_
  refine congrArg (a (ix2 p q) + ·) ?_
  refine (one_apply _ p q).trans ?_
  refine (colsum_apply _ _ _ 0).trans ?_
  refine Finset.sum_congr rfl fun r _ => ?_
  refine (logdiv_apply _ _ _).trans ?_
  unfold rowLoss
  refine congrArg Ideal.log (congrArg₂ Ideal.div ?_ ?_)
  · refine (col_apply _ r 0).trans ?_
    exact rowsum_apply (maximumf x0 x1) _ _ r
  · refine (col_apply _ r 0).trans ?_
    exact rowsum_apply (minimumf x0 x1) _ _ r

/-- The zero payload is zero. -/
theorem pay1_apply (y : S1x1.Idx) : k0_pay1 (F := Ideal) y = 0 := by
  unfold k0_pay1
  refine (congrFun (shapeCast_self _ _) _).trans ?_
  exact Ideal.ofBits_zero_f32

/-- The closing payload divides by the word of 524288.0. -/
theorem pay3_apply (v : Vec Ideal S1x1 .f32) (y : S1x1.Idx) : k0_pay3 (F := Ideal) v y = Ideal.div (v y) nRows := rfl

end Cert.KernelIdeal.AtIdeal

end
-- ==== Proof.KernelValue.lean ====
/-
  The idealized kernel's result IS the loss of its two argument arrays.

  A block of an input window at point `t` holds rows 16384·t … 16384·t + 16383 of its array (`blk_apply`).  So the
  accumulator after the last point is 0 plus the sum over the 32 points of the points' run sums (the fold, by
  `SumLaws.fold_eq_sum`), which is the sum over all 524288 rows (`Spec.rows_by_runs`); the closing payload divides it by
  the row count, and the host's reshape of the [1,1] result to [1] moves its one entry.
-/
import proofs.«146596_j37649683317009_1_alg».proof.Proof.KernelFold
import proofs.«146596_j37649683317009_1_alg».proof.Proof.KernelAtIdeal

noncomputable section

open Idealize.ShloMosaic Idealize.ShloMosaic.TcCoe Idealize.SL.Sem Idealize.ShloMosaic.ValueIdx
open scoped BigOperators

namespace Cert.KernelIdeal.Value

open Cert.KernelIdeal Cert.KernelIdeal.Gen Cert.KernelIdeal.Fold Cert.KernelIdeal.AtIdeal Cert.Proof.Spec Cert.Proof

/-- The two index maps: block `t` of either input starts at row-block `t`, column-block 0. -/
theorem idx_facts : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

section AnyF
variable {F : FTy → Type} [FloatOps F]
variable (m : (ℓ : Loc nD τ sig) → Buf (Elt F) ℓ)

/-- Entry (r, j) of the first input's block at point `t` is entry (16384·t + r, j) of the first argument. -/
theorem pblk_apply (c : Dev nD) (t : Fin cfg0.N) (r : Fin 16384) (j : Fin 36) (hr : t.val * 16384 + r.val < 524288) :
    pblk m c t (ix2 r j) = m ((c : Thread nD τ).loc main_arg0) (ix2 ⟨t.val * 16384 + r.val, hr⟩ j) := by
  unfold pblk iblk
  rw [View.read_apply]
  show V m c main_arg0 _ = m (c.tc.loc main_arg0) _
  unfold V
  congr 1
  funext a
  apply Fin.ext
  match a with
  | ⟨0, _⟩ => show win0_0.index t 0 * 16384 + 1 * r.val = t.val * 16384 + r.val; rw [(idx_facts t).1.1]; omega
  | ⟨1, _⟩ => show win0_0.index t 1 * 36 + 1 * j.val = j.val; rw [(idx_facts t).1.2]; omega

/-- The same for the second input and the second argument. -/
theorem gblk_apply (c : Dev nD) (t : Fin cfg0.N) (r : Fin 16384) (j : Fin 36) (hr : t.val * 16384 + r.val < 524288) :
    gblk m c t (ix2 r j) = m ((c : Thread nD τ).loc main_arg1) (ix2 ⟨t.val * 16384 + r.val, hr⟩ j) := by
  unfold gblk iblk
  rw [View.read_apply]
  show V m c main_arg1 _ = m (c.tc.loc main_arg1) _
  unfold V
  congr 1
  funext a
  apply Fin.ext
  match a with
  | ⟨0, _⟩ => show win0_1.index t 0 * 16384 + 1 * r.val = t.val * 16384 + r.val; rw [(idx_facts t).2.1]; omega
  | ⟨1, _⟩ => show win0_1.index t 1 * 36 + 1 * j.val = j.val; rw [(idx_facts t).2.2]; omega

end AnyF

variable (m : (ℓ : Loc nD τ sig) → Buf (Elt Ideal) ℓ)

/-- The two argument arrays, as arrays of extended reals. -/
abbrev argP (c : Dev nD) : (⟨2, ![524288, 36]⟩ : Shape).Idx → EReal := m ((c : Thread nD τ).loc main_arg0)
abbrev argG (c : Dev nD) : (⟨2, ![524288, 36]⟩ : Shape).Idx → EReal := m ((c : Thread nD τ).loc main_arg1)

/-- Point `t`'s run sum: the row terms of rows 16384·t … 16384·t + 16383. -/
def runSum (c : Dev nD) (t : Fin cfg0.N) : EReal :=
  ∑ r : Fin 16384, rowLoss (fun j => pblk m c t (ix2 r j)) (fun j => gblk m c t (ix2 r j))

/-- The accumulator after point `n`, at its one entry: 0 plus the run sums so far. -/
theorem acc_apply (c : Dev nD) (p q : Fin 1) (n : ℕ) (h : n < cfg0.N) :
    acc m c n h (ix2 p q) = 0 + ∑ s : Fin (n + 1), runSum m c ⟨s.val, Nat.lt_of_lt_of_le s.isLt h⟩ :=
  SumLaws.fold_eq_sum (0 : EReal) (runSum m c) (fun n h => acc m c n h (ix2 p q))
    (fun h => (pay2_apply _ _ _ p q).trans (congrArg (· + _) (pay1_apply _)))
    (fun n h => pay2_apply _ _ _ p q) n h

/-- THE KERNEL'S VALUE: the [1,1] result array's entry is the loss of the two arguments. -/
theorem result_apply (c : Dev nD) (p q : Fin 1) : result m c (ix2 p q) = meanLoss (argP m c) (argG m c) := by
  have hN : cfg0.N = 32 := N_0
  show k0_pay3 (F := Ideal) (acc m c 31 tLast.isLt) (ix2 p q) = _
  rw [pay3_apply, acc_apply]
  unfold meanLoss
  refine congrArg (fun x => Ideal.div (0 + x) nRows) ?_
  rw [rows_by_runs]
  refine Finset.sum_congr rfl fun s _ => ?_
  unfold runSum
  refine Finset.sum_congr rfl fun r _ => ?_
  refine congrArg₂ rowLoss (funext fun j => ?_) (funext fun j => ?_)
  · exact pblk_apply m c ⟨s.val, _⟩ r j (SumLaws.run_lt s r)
  · exact gblk_apply m c ⟨s.val, _⟩ r j (SumLaws.run_lt s r)

/-- The program's result buffer (the reshape to [1]) holds the loss at its one entry. -/
theorem main_v1_apply (c : Dev nD) (y : S1.Idx) :
    shapeCast S1 (result m c) shapeCasts_S1x1_S1 y = meanLoss (argP m c) (argG m c) := by
  refine (shapeCast_apply (s := S1x1) (t := S1) (result m c) _ y (ix2 0 0) ?_).trans (result_apply m c 0 0)
  show (S1x1.rowMajor (ix2 0 0)).val = (S1.rowMajor y).val
  rw [Shape.rowMajor_val_one, Shape.rowMajor_val_two]
  have h1 : (y 0).val < 1 := (y 0).isLt
  show (0 : Fin 1).val * 1 + (0 : Fin 1).val = (y 0).val
  simp only [Fin.val_zero]; omega

end Cert.KernelIdeal.Value

end
-- ==== Proof.RefValue.lean ====
/-
  The idealized reference's result IS the loss of its two argument arrays.

  Stage by stage (the generated read-at-an-index lemmas): the row sums of the maxima and of the minima start from the
  zero word, which is 0; their quotient and its log give the row term; the total over the 524288 rows again starts
  from 0 and is divided by the word of 524288.0; the closing reshape from rank 0 to [1] moves the one entry.
-/
import proofs.«146596_j37649683317009_1_alg».proof.Proof.Gen.ReferenceIdeal.Read
import proofs.«146596_j37649683317009_1_alg».proof.Proof.Spec
import Idealize.ShloMosaic.Lib.ValueIdxRank1

noncomputable section

open Idealize.ShloMosaic Idealize.ShloMosaic.ValueIdx
open scoped BigOperators

namespace Cert.ReferenceIdeal.RefValue

open Cert.ReferenceIdeal Cert.ReferenceIdeal.Gen Cert.ReferenceIdeal.Read Cert.Proof.Spec

/-- The entries a row sum reads: row `i`, column `k`. -/
theorem idx_max (i : Fin 524288) (k : Fin 36) : idx_main_v1 (ix1 i) k = ix2 i k :=
  funext fun a => Fin.ext (by match a with | ⟨0, _⟩ => rfl | ⟨1, _⟩ => rfl)
theorem idx_min (i : Fin 524288) (k : Fin 36) : idx_main_v3 (ix1 i) k = ix2 i k :=
  funext fun a => Fin.ext (by match a with | ⟨0, _⟩ => rfl | ⟨1, _⟩ => rfl)

/-- Row `i`'s stage: the row term. -/
theorem row_apply (x0 x1 : S524288x36.Idx → EReal) (i : Fin 524288) :
    val_main_v5 (F := Ideal) x0 x1 (ix1 i) = rowLoss (rowOf x0 i) (rowOf x1 i) := by
  rw [val_main_v5_apply, val_main_v4_apply, val_main_v1_apply, val_main_v3_apply]
  simp only [val_main_cst_apply, val_main_cst_0_apply, val_main_v0_apply, val_main_v2_apply, idx_max, idx_min,
    Ideal.ofBits_def, Ideal.ofBits_zero_f32, zero_add, Ideal.hostUnary_log_def, Ideal.hostDivf_def,
    Ideal.maximumf_def, Ideal.minimumf_def]
  rfl

/-- THE REFERENCE'S VALUE: the result's one entry is the loss of the two arguments. -/
theorem result_apply (x0 x1 : S524288x36.Idx → EReal) (y : S1.Idx) :
    val_main_v8 (F := Ideal) x0 x1 y = meanLoss x0 x1 := by
  unfold val_main_v8 shapeCast
  refine (congrArg (val_main_v7 (F := Ideal) x0 x1) (eq_ix0 _)).trans ?_
  rw [val_main_v7_apply, val_main_v6_apply]
  simp only [val_main_cst_1_apply, val_main_cst_2_apply, Ideal.ofBits_def, Ideal.ofBits_zero_f32, Ideal.hostDivf_def]
  unfold meanLoss
  refine congrArg (fun x => Ideal.div (0 + x) nRows) ?_
  rw [← Equiv.sum_comp (idxEquiv1 (n := 524288)).symm]
  exact Finset.sum_congr rfl fun i _ => row_apply x0 x1 i

end Cert.ReferenceIdeal.RefValue

end
-- ==== Proof.lean ====
/-
  The certificate of a polar IoU loss kernel against its jnp reference, over the extended reals.

  Both programs compute, from y_pred, y_gt : f32[524288, 36],

      mean over the rows i of  log( Σⱼ max(y_pred i j, y_gt i j) / Σⱼ min(y_pred i j, y_gt i j) )

  as a one-entry array.  The reference takes the two row sums, the quotient, the log, one sum over all 524288 rows and
  a division by 524288.0.  The kernel walks the rows in 32 blocks of 16384: a scalar accumulator, zeroed at the first
  grid point, gains at each point the sum of the block's row terms, and at the last point the accumulator divided by
  524288.0 is written out.  At the ideal instance the two differ only in how the sum over the rows is grouped, and
  addition of extended reals is commutative and associative (at the infinities too), so the results are equal on every
  input; finiteness of the inputs is never used.  Every literal (the zero word, the word of 524288.0) is the same word
  on both sides.

  Modules: `LibSumLaws` (a running total is a sum; a sum over a·b indices by runs), `Spec` (the loss as one function),
  `KernelFold` (the kernel's stores read back: the accumulator as a fold over the grid points, the result array, the
  run), `KernelAtIdeal` (the payloads at an index), `KernelValue` (the kernel's result is the loss), `RefValue` (the
  reference's result is the loss).  The ideal pass rewrote nothing, so `preserves` is trivial.
-/
import proofs.«146596_j37649683317009_1_alg».proof.Defs
import proofs.«146596_j37649683317009_1_alg».proof.Proof.Gen.Kernel
import proofs.«146596_j37649683317009_1_alg».proof.Proof.Gen.Kernel.Skeleton
import proofs.«146596_j37649683317009_1_alg».proof.Proof.Gen.Kernel.Launch
import proofs.«146596_j37649683317009_1_alg».proof.Proof.Gen.Kernel.Points
import proofs.«146596_j37649683317009_1_alg».proof.Proof.Gen.Kernel.Frame
import proofs.«146596_j37649683317009_1_alg».proof.Proof.Gen.KernelIdeal
import proofs.«146596_j37649683317009_1_alg».proof.Proof.Gen.KernelIdeal.Skeleton
import proofs.«146596_j37649683317009_1_alg».proof.Proof.Gen.KernelIdeal.Launch
import proofs.«146596_j37649683317009_1_alg».proof.Proof.Gen.KernelIdeal.Points
import proofs.«146596_j37649683317009_1_alg».proof.Proof.Gen.KernelIdeal.Frame
import proofs.«146596_j37649683317009_1_alg».proof.Proof.Gen.ReferenceIdeal
import proofs.«146596_j37649683317009_1_alg».proof.Proof.Gen.ReferenceIdeal.Run
import proofs.«146596_j37649683317009_1_alg».proof.Proof.Gen.ReferenceIdeal.Read
import proofs.«146596_j37649683317009_1_alg».proof.Proof.Gen.Pre_finite_inputs
import proofs.«146596_j37649683317009_1_alg».proof.Proof.KernelValue
import proofs.«146596_j37649683317009_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance the kernel's result buffer ends at the reshape of its [1,1] result array and the reference's
    at its last stage; at their one entry both are the loss of the (agreeing) argument arrays. -/
theorem algebraic : Cert.algebraic_KernelIdeal_ReferenceIdeal := by
  intro m ρ m' ρ' _ hagree
  refine ⟨_, Cert.KernelIdeal.Fold.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq]
  funext y
  rw [Cert.ReferenceIdeal.RefValue.result_apply, Cert.KernelIdeal.Value.main_v1_apply, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
